-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![1, 0] · slices_S2x800000_S1x800000_1_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  main_v29

def fn {F : FTy → Type} [FloatOps F] (main_arg0 : FVec F S50000x128 .f32) (main_arg1 : IVec S2x800000 32) (main_arg2 : FVec F S256x128 .f32) (main_arg3 : FVec F S128 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S128x128 : Shape := ⟨2, ![128, 128]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 64
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128, .f32⟩
  | .hbm, ⟨63, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  slices_S256x128_S128x128_0_0 : S256x128.Slices ![0, 0] S128x128
  slices_S256x128_S128x128_128_0 : S256x128.Slices ![128, 0] S128x128
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x256, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x256, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Chain.lean ====
/-
  The host computations both programs share, each named once as a function of whole arrays, in the kernel program's
  vocabulary: the two rows of the edge list, a node id counted from the end brought into range, the sum of the
  features gathered along the incoming edges, and the in-degree. The proof never opens the gather or the
  accumulating scatter: it only needs that both programs apply the same ones to the same arrays.
-/
import proofs.«407514_j51651276702105_3_alg».proof.Proof.Gen.KernelIdeal
import Idealize.ShloMosaic.PureOps.Ideal

noncomputable section

namespace Cert.KernelIdeal.Chain

open Cert.KernelIdeal Cert.KernelIdeal.Gen Idealize.ShloMosaic

/-- Row 0 of the edge list: the source node of every edge. -/
def src (E : IVec S2x800000 32) : IVec S800000 32 :=
  shapeCast S800000 (extractStridedSlice S1x800000 ![0, 0] E slices_S2x800000_S1x800000_0_0) shapeCasts_S1x800000_S800000

/-- Row 1 of the edge list: the target node of every edge. -/
def tgt (E : IVec S2x800000 32) : IVec S800000 32 :=
  shapeCast S800000 (extractStridedSlice S1x800000 ![1, 0] E slices_S2x800000_S1x800000_1_0) shapeCasts_S1x800000_S800000

/-- A node id counted from the end (a negative one) brought into range by adding the number of nodes. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of ids as the one-column index array a gather or scatter takes. -/
def col (v : IVec S800000 32) : IVec S800000x1 32 := broadcastInDim S800000x1 ![0] bcast_S800000_S800000x1_0 v

/-- The neighbour sum: the rows of X gathered at the edges' sources, accumulated at the edges' targets. -/
def nsum (X : FVec Ideal S50000x128 .f32) (E : IVec S2x800000 32) : FVec Ideal S50000x128 .f32 :=
  Host.scatterAdd scatter_S50000x128_S800000x1_S800000x128_1_0_0_1
    (broadcastInDim S50000x128 ![] bcast_S_S50000x128 (constant S_ .f32 0x00000000#32))
    (col (tgt E))
    (Host.gather gather_S50000x128_S800000x1_S800000x128_1_0_n_n_0_1_1128 X (col (wrap (src E))))

/-- The number of edges arriving at each node, counted at the given ids. -/
def degAt (ids : IVec S800000 32) : FVec Ideal S50000 .f32 :=
  Host.scatterAdd scatter_S50000_S800000x1_S800000_n_0_0_1
    (broadcastInDim S50000 ![] bcast_S_S50000 (constant S_ .f32 0x00000000#32))
    (col ids)
    (broadcastInDim S800000 ![] bcast_S_S800000 (constant S_ .f32 0x3F800000#32))

/-- The reciprocal of the degree clamped below by one, as the one-column array the launches read. -/
def invDeg (D : FVec Ideal S50000 .f32) : FVec Ideal S50000x1 .f32 :=
  shapeCast S50000x1
    (Host.divf (broadcastInDim S50000 ![] bcast_S_S50000 (constant S_ .f32 0x3F800000#32))
      (maximumf D (broadcastInDim S50000 ![] bcast_S_S50000 (constant S_ .f32 0x3F800000#32))))
    shapeCasts_S50000_S50000x1

/-- The top half of a 256 x 128 weight. -/
def top (W : FVec Ideal S256x128 .f32) : FVec Ideal S128x128 .f32 :=
  extractStridedSlice S128x128 ![0, 0] W slices_S256x128_S128x128_0_0

/-- The bottom half of a 256 x 128 weight. -/
def bot (W : FVec Ideal S256x128 .f32) : FVec Ideal S128x128 .f32 :=
  extractStridedSlice S128x128 ![128, 0] W slices_S256x128_S128x128_128_0

/-- A bias vector as one row. -/
def row (b : FVec Ideal S128 .f32) : FVec Ideal S1x128 .f32 := shapeCast S1x128 b shapeCasts_S128_S1x128

end Cert.KernelIdeal.Chain

end
-- ==== Proof.Spec.lean ====
/-
  The mathematics both programs compute, stated once over whole arrays of extended reals.

  A graph has 50000 nodes with 128 features each. One mean-aggregation layer takes the node features X, the sum S of
  the features gathered along the incoming edges, the in-degree D, a 256 x 128 weight W and a bias b, and gives node n
  the new feature j

      max ( sum_k X[n,k] * W[k,j]  +  sum_k (S[n,k] / max(D[n], 1)) * W[128+k,j]  +  b[j] ,  0 ).

  The reference reaches it as one 256-wide contraction of the row (X[n,:], S[n,:] / max(D[n],1)) laid side by side;
  the kernel as two 128-wide contractions against the two halves of W, with the quotient spelt as a product with
  the reciprocal 1 / max(D[n],1). Two facts join them: a sum over 256 indices is the sum over its two halves (addition
  on the extended reals is commutative and associative, nothing more is used), and on the extended reals
  a * (1 / d) = a / d as soon as d is not zero, which max(D[n],1) never is.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx
open scoped BigOperators

/-- Position k of the first half of a 256-long axis. -/
def lo (k : Fin 128) : Fin 256 := ⟨k.val, by have := k.isLt; omega⟩
/-- Position k of the second half of a 256-long axis. -/
def hi (k : Fin 128) : Fin 256 := ⟨128 + k.val, by have := k.isLt; omega⟩

/-- A sum over 256 indices is the sum over the first 128 plus the sum over the last 128. -/
theorem sum_halves {M : Type*} [AddCommMonoid M] (f : Fin 256 → M) :
    ∑ k : Fin 256, f k = (∑ k : Fin 128, f (lo k)) + ∑ k : Fin 128, f (hi k) := by
  have h := Fin.sum_univ_add (M := M) (a := 128) (b := 128) (fun k : Fin (128 + 128) => f ⟨k.val, k.isLt⟩)
  refine h.trans ?_
  rfl

/-- On the extended reals a product with the reciprocal of a nonzero d is the quotient by d: both are a times the
    inverse of d. -/
theorem mul_one_div (a d : EReal) (hd : d ≠ 0) : a * Ideal.div 1 d = Ideal.div a d := by
  unfold Ideal.div
  rw [if_neg hd, if_neg hd, one_mul]

/-- The degree clamped below by one is never zero. -/
theorem clamp_ne_zero (x : EReal) : max x 1 ≠ 0 :=
  (lt_of_lt_of_le zero_lt_one (le_max_right x 1)).ne'

/-- One layer at node n, feature j, as a function of the whole arrays. -/
def layerAt (X S : (⟨2, ![50000, 128]⟩ : Shape).Idx → EReal) (D : (⟨1, ![50000]⟩ : Shape).Idx → EReal)
    (W : (⟨2, ![256, 128]⟩ : Shape).Idx → EReal) (b : (⟨1, ![128]⟩ : Shape).Idx → EReal)
    (n : Fin 50000) (j : Fin 128) : EReal :=
  max (((∑ k : Fin 128, X (ix2 n k) * W (ix2 (lo k) j))
        + ∑ k : Fin 128, Ideal.div (S (ix2 n k)) (max (D (ix1 n)) 1) * W (ix2 (hi k) j))
       + b (ix1 j)) 0

/-- One layer as a whole array. -/
def layer (X S : (⟨2, ![50000, 128]⟩ : Shape).Idx → EReal) (D : (⟨1, ![50000]⟩ : Shape).Idx → EReal)
    (W : (⟨2, ![256, 128]⟩ : Shape).Idx → EReal) (b : (⟨1, ![128]⟩ : Shape).Idx → EReal) :
    (⟨2, ![50000, 128]⟩ : Shape).Idx → EReal :=
  fun i => layerAt X S D W b ⟨(i 0).val, (i 0).isLt⟩ ⟨(i 1).val, (i 1).isLt⟩

theorem layer_apply (X S : (⟨2, ![50000, 128]⟩ : Shape).Idx → EReal) (D : (⟨1, ![50000]⟩ : Shape).Idx → EReal)
    (W : (⟨2, ![256, 128]⟩ : Shape).Idx → EReal) (b : (⟨1, ![128]⟩ : Shape).Idx → EReal) (n : Fin 50000) (j : Fin 128) :
    layer X S D W b (ix2 n j) = layerAt X S D W b n j := rfl

/-- The form the kernel's launches compute, on an array of R rows (a 10000-row block inside the body, the 50000-row
    array after a launch): the input rows against one 128 x 128 weight, the neighbour sums scaled by a per-row factor
    I[n] against another, a bias row, clipped at zero. -/
def rowsAt {R : Nat} (X S : (⟨2, ![R, 128]⟩ : Shape).Idx → EReal) (I : (⟨2, ![R, 1]⟩ : Shape).Idx → EReal)
    (Wa Wb : (⟨2, ![128, 128]⟩ : Shape).Idx → EReal) (B : (⟨2, ![1, 128]⟩ : Shape).Idx → EReal)
    (n : Fin R) (j : Fin 128) : EReal :=
  max (((∑ k : Fin 128, X (ix2 n k) * Wa (ix2 k j))
        + ∑ k : Fin 128, (S (ix2 n k) * I (ix2 n (0 : Fin 1))) * Wb (ix2 k j))
       + B (ix2 (0 : Fin 1) j)) 0

/-- That form on the whole 50000-row array. -/
def region (X S : (⟨2, ![50000, 128]⟩ : Shape).Idx → EReal) (I : (⟨2, ![50000, 1]⟩ : Shape).Idx → EReal)
    (Wa Wb : (⟨2, ![128, 128]⟩ : Shape).Idx → EReal) (B : (⟨2, ![1, 128]⟩ : Shape).Idx → EReal) :
    (⟨2, ![50000, 128]⟩ : Shape).Idx → EReal :=
  fun i => rowsAt X S I Wa Wb B ⟨(i 0).val, (i 0).isLt⟩ ⟨(i 1).val, (i 1).isLt⟩

theorem region_apply (X S : (⟨2, ![50000, 128]⟩ : Shape).Idx → EReal) (I : (⟨2, ![50000, 1]⟩ : Shape).Idx → EReal)
    (Wa Wb : (⟨2, ![128, 128]⟩ : Shape).Idx → EReal) (B : (⟨2, ![1, 128]⟩ : Shape).Idx → EReal) (n : Fin 50000) (j : Fin 128) :
    region X S I Wa Wb B (ix2 n j) = rowsAt X S I Wa Wb B n j := rfl

/-- The kernel's form is the layer, when the per-node factor is the reciprocal of the clamped degree, the two small
    weights are the halves of W and the bias row is b: the product with the reciprocal is the quotient. -/
theorem rowsAt_eq_layerAt (X S : (⟨2, ![50000, 128]⟩ : Shape).Idx → EReal) (I : (⟨2, ![50000, 1]⟩ : Shape).Idx → EReal)
    (Wa Wb : (⟨2, ![128, 128]⟩ : Shape).Idx → EReal) (B : (⟨2, ![1, 128]⟩ : Shape).Idx → EReal)
    (D : (⟨1, ![50000]⟩ : Shape).Idx → EReal) (W : (⟨2, ![256, 128]⟩ : Shape).Idx → EReal) (b : (⟨1, ![128]⟩ : Shape).Idx → EReal)
    (hI : ∀ n : Fin 50000, I (ix2 n (0 : Fin 1)) = Ideal.div 1 (max (D (ix1 n)) 1))
    (hWa : ∀ (k j : Fin 128), Wa (ix2 k j) = W (ix2 (lo k) j))
    (hWb : ∀ (k j : Fin 128), Wb (ix2 k j) = W (ix2 (hi k) j))
    (hB : ∀ j : Fin 128, B (ix2 (0 : Fin 1) j) = b (ix1 j))
    (n : Fin 50000) (j : Fin 128) :
    rowsAt X S I Wa Wb B n j = layerAt X S D W b n j := by
  unfold rowsAt layerAt
  rw [hI n, hB j]
  congr 3
  · exact Finset.sum_congr rfl fun k _ => by rw [hWa k j]
  · exact Finset.sum_congr rfl fun k _ => by rw [hWb k j, mul_one_div _ _ (clamp_ne_zero _)]

/-- The reference's form is the layer: one contraction over the 256-wide row whose first half is X[n,:] and whose
    second half is the quotient S[n,:] / max(D[n],1), split into its two halves. -/
theorem wide_eq_layerAt (X S : (⟨2, ![50000, 128]⟩ : Shape).Idx → EReal) (D : (⟨1, ![50000]⟩ : Shape).Idx → EReal)
    (W : (⟨2, ![256, 128]⟩ : Shape).Idx → EReal) (b : (⟨1, ![128]⟩ : Shape).Idx → EReal)
    (C : (⟨2, ![50000, 256]⟩ : Shape).Idx → EReal) (n : Fin 50000) (j : Fin 128)
    (hlo : ∀ k : Fin 128, C (ix2 n (lo k)) = X (ix2 n k))
    (hhi : ∀ k : Fin 128, C (ix2 n (hi k)) = Ideal.div (S (ix2 n k)) (max (D (ix1 n)) 1)) :
    max ((∑ k : Fin 256, C (ix2 n k) * W (ix2 k j)) + b (ix1 j)) 0 = layerAt X S D W b n j := by
  unfold layerAt
  rw [sum_halves]
  congr 3
  · exact Finset.sum_congr rfl fun k _ => by rw [hlo k]
  · exact Finset.sum_congr rfl fun k _ => by rw [hhi k]

end Cert.Sage

end
-- ==== Proof.KernelBody.lean ====
/-
  What one launch's body stores, read at an index: row p, feature q of the stored block is
      max ( sum_k x[p,k] * Wa[k,q]  +  sum_k (s[p,k] * inv[p]) * Wb[k,q]  +  b[q] ,  0 )
  of the six blocks the body loads. Both matrix products run into a zero accumulator, so each is the plain sum over
  the contracted index; the casts to the same shape are the identity; the two broadcasts repeat a column along the
  features and a row along the nodes.
-/
import proofs.«407514_j51651276702105_3_alg».proof.Proof.Gen.KernelIdeal.Skeleton
import proofs.«407514_j51651276702105_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The matrix product at an index

  The product contracts the left operand's column axis against the right operand's row axis. At output index (p, q)
  and contracted position c the left operand is read at (p, c) and the right at (c, q): one fact per operand axis. -/

/-- On the left operand's row axis the product reads the output's row. -/
private theorem lhs_axis0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- On the left operand's column axis it reads the contracted position. -/
private theorem lhs_axis1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
/-- On the right operand's row axis it reads the contracted position. -/
private theorem rhs_axis0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
/-- On the right operand's column axis it reads the output's column. -/
private theorem rhs_axis1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000 x 128 by 128 x 128 product into a zero accumulator, at row p and column q, is the sum over the 128
    contracted positions k of l[p,k] * r[k,q]: the accumulator adds zero, and the one-axis contraction index is
    its one coordinate, so the sum over it is the sum over k. -/
private theorem matmul_at (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The column broadcast at an index -/

/-- A 10000 x 1 column repeated along 128 features reads, at row p and feature k, the column's entry of row p: the
    row axis has more than one entry and keeps its coordinate, the unit axis is read at 0. -/
private theorem column_at {α : Type} (v : S10000x1.Idx → α) (p : Fin 10000) (k : Fin 128) :
    broadcastTo S10000x128 v broadcasts_S10000x1_S10000x128 (ix2 p k) = v (ix2 p (0 : Fin 1)) := by
  refine broadcastTo_apply v broadcasts_S10000x1_S10000x128 (ix2 p k) (ix2 p (0 : Fin 1)) fun ax => ?_
  match ax with
  | ⟨0, _⟩ =>
    show p.val = if (10000 : Nat) = 1 then 0 else p.val
    rw [if_neg (by decide)]
  | ⟨1, _⟩ =>
    show (0 : Nat) = if (1 : Nat) = 1 then 0 else k.val
    rw [if_pos rfl]

/-! ## The two stored blocks

  Each is read outermost first: the clip against the zero splat, the two sums, the two products into zero, the bias
  row; the casts to the same shape drop out; inside the second product the scaled neighbour sum is the entry times
  its row's factor. -/

/-- The first launch's stored block at row p, feature q. -/
theorem pay0_apply (v0 : Vec Ideal S10000x128 .f32) (v2 : Vec Ideal S10000x1 .f32) (v6 : Vec Ideal S10000x128 .f32)
    (v7 v10 : Vec Ideal S128x128 .f32) (v14 : Vec Ideal S1x128 .f32) (p : Fin 10000) (q : Fin 128) :
    k0_pay1 (F := Ideal) v0 v2 v6 v7 v10 v14 (ix2 p q) = Cert.Sage.rowsAt (R := 10000) v6 v0 v2 v7 v10 v14 p q := by
  unfold k0_pay1 Cert.Sage.rowsAt
  simp only [shapeCast_self]
  rw [maximumf_apply, addf_apply, addf_apply, broadcast_apply, matmul_at, matmul_at, broadcastTo_1b_ab_apply,
    Ideal.ofBits_def, Ideal.ofBits_zero_f32]
  simp only [mulf_apply, column_at]

/-- The second launch's stored block at row p, feature q. -/
theorem pay1_apply (v0 : Vec Ideal S10000x128 .f32) (v2 : Vec Ideal S10000x1 .f32) (v6 : Vec Ideal S10000x128 .f32)
    (v8 v11 : Vec Ideal S128x128 .f32) (v15 : Vec Ideal S1x128 .f32) (p : Fin 10000) (q : Fin 128) :
    k1_pay1 (F := Ideal) v0 v2 v6 v8 v11 v15 (ix2 p q) = Cert.Sage.rowsAt (R := 10000) v6 v0 v2 v8 v11 v15 p q := by
  unfold k1_pay1 Cert.Sage.rowsAt
  simp only [shapeCast_self]
  rw [maximumf_apply, addf_apply, addf_apply, broadcast_apply, matmul_at, matmul_at, broadcastTo_1b_ab_apply,
    Ideal.ofBits_def, Ideal.ofBits_zero_f32]
  simp only [mulf_apply, column_at]

end Cert.KernelIdeal.Body

end
-- ==== Proof.Region0.lean ====
/-
  Launch 0 as a whole: five grid points, point t holding rows 10000 t .. 10000 t + 9999 of the three row-blocked
  operands and of the result, and the two weights and the bias row whole at every point. Each point writes back the
  body's block of its own rows, the five blocks tile the 50000 rows, so the result array after the launch is the
  layer's kernel form of the arrays the launch found.
-/
import proofs.«407514_j51651276702105_3_alg».proof.Proof.Gen.KernelIdeal.Frame
import proofs.«407514_j51651276702105_3_alg».proof.Proof.KernelBody

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The pair of zero offsets is the constant zero. -/
private theorem zero_offsets : (![0, 0] : Fin 2 → Nat) = fun _ => 0 := funext fun a => by fin_cases a <;> rfl

/-- Where each window's block sits at grid point t: the three row-blocked operands and the result at block (t, 0),
    the two weights and the bias row at block (0, 0); and there are five points. -/
private theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ t.val < 5 :=
  (by decide +kernel : ∀ t : Fin grid0.N, _)

/-- Every one of the five row blocks is some point's. -/
private theorem point_of_block : ∀ r : Fin 5, ∃ t : Fin cfg0.N, win0_6.index t = ![r.val, 0] :=
  (by decide +kernel : ∀ r : Fin 5, ∃ t : Fin grid0.N, win0_6.index t = ![r.val, 0])

/-- The block of the node features at point t: its row p is row 10000 t + p of the array. -/
private theorem blk_x (c : Dev nD) (t : Fin cfg0.N) (p : Fin 10000) (k : Fin 128) (n : Fin 50000)
    (hn : n.val = t.val * 10000 + p.val) :
    (iblk0 V c 0 t : Vec Ideal S10000x128 .f32) (ix2 p k) = (V c main_arg0 : S50000x128.Idx → EReal) (ix2 n k) := by
  obtain ⟨⟨e0, e1⟩, -⟩ := block_index t
  show (V c main_arg0 : S50000x128.Idx → EReal) (((cfg0.win 0).blk t).view.emb (ix2 p k)) = _
  congr 1
  funext a
  apply Fin.ext
  match a with
  | ⟨0, _⟩ => show win0_0.index t (0 : Fin 2) * 10000 + 1 * p.val = n.val; omega
  | ⟨1, _⟩ => show win0_0.index t (1 : Fin 2) * 128 + 1 * k.val = k.val; omega

/-- The block of the neighbour sums at point t: its row p is row 10000 t + p of the array. -/
private theorem blk_s (c : Dev nD) (t : Fin cfg0.N) (p : Fin 10000) (k : Fin 128) (n : Fin 50000)
    (hn : n.val = t.val * 10000 + p.val) :
    (iblk0 V c 1 t : Vec Ideal S10000x128 .f32) (ix2 p k) = (V c main_v31 : S50000x128.Idx → EReal) (ix2 n k) := by
  obtain ⟨-, ⟨e0, e1⟩, -⟩ := block_index t
  show (V c main_v31 : S50000x128.Idx → EReal) (((cfg0.win 1).blk t).view.emb (ix2 p k)) = _
  congr 1
  funext a
  apply Fin.ext
  match a with
  | ⟨0, _⟩ => show win0_1.index t (0 : Fin 2) * 10000 + 1 * p.val = n.val; omega
  | ⟨1, _⟩ => show win0_1.index t (1 : Fin 2) * 128 + 1 * k.val = k.val; omega

/-- The block of the per-node factors at point t: its row p is row 10000 t + p of the column. -/
private theorem blk_inv (c : Dev nD) (t : Fin cfg0.N) (p : Fin 10000) (n : Fin 50000)
    (hn : n.val = t.val * 10000 + p.val) :
    (iblk0 V c 2 t : Vec Ideal S10000x1 .f32) (ix2 p (0 : Fin 1)) = (V c main_v17 : S50000x1.Idx → EReal) (ix2 n (0 : Fin 1)) := by
  obtain ⟨-, -, ⟨e0, e1⟩, -⟩ := block_index t
  show (V c main_v17 : S50000x1.Idx → EReal) (((cfg0.win 2).blk t).view.emb (ix2 p (0 : Fin 1))) = _
  congr 1
  funext a
  apply Fin.ext
  match a with
  | ⟨0, _⟩ => show win0_2.index t (0 : Fin 2) * 10000 + 1 * p.val = n.val; omega
  | ⟨1, _⟩ => show win0_2.index t (1 : Fin 2) * 1 + 1 * 0 = 0; omega

/-- The first weight is staged whole at every point. -/
private theorem blk_wa (c : Dev nD) (t : Fin cfg0.N) (k q : Fin 128) :
    (iblk0 V c 3 t : Vec Ideal S128x128 .f32) (ix2 k q) = (V c main_v18 : S128x128.Idx → EReal) (ix2 k q) := by
  obtain ⟨-, -, -, ⟨e0, e1⟩, -⟩ := block_index t
  show (V c main_v18 : S128x128.Idx → EReal) (((cfg0.win 3).blk t).view.emb (ix2 k q)) = _
  congr 1
  funext a
  apply Fin.ext
  match a with
  | ⟨0, _⟩ => show win0_3.index t (0 : Fin 2) * 128 + 1 * k.val = k.val; omega
  | ⟨1, _⟩ => show win0_3.index t (1 : Fin 2) * 128 + 1 * q.val = q.val; omega

/-- The second weight is staged whole at every point. -/
private theorem blk_wb (c : Dev nD) (t : Fin cfg0.N) (k q : Fin 128) :
    (iblk0 V c 4 t : Vec Ideal S128x128 .f32) (ix2 k q) = (V c main_v19 : S128x128.Idx → EReal) (ix2 k q) := by
  obtain ⟨-, -, -, -, ⟨e0, e1⟩, -⟩ := block_index t
  show (V c main_v19 : S128x128.Idx → EReal) (((cfg0.win 4).blk t).view.emb (ix2 k q)) = _
  congr 1
  funext a
  apply Fin.ext
  match a with
  | ⟨0, _⟩ => show win0_4.index t (0 : Fin 2) * 128 + 1 * k.val = k.val; omega
  | ⟨1, _⟩ => show win0_4.index t (1 : Fin 2) * 128 + 1 * q.val = q.val; omega

/-- The bias row is staged whole at every point. -/
private theorem blk_b (c : Dev nD) (t : Fin cfg0.N) (q : Fin 128) :
    (iblk0 V c 5 t : Vec Ideal S1x128 .f32) (ix2 (0 : Fin 1) q) = (V c main_v32 : S1x128.Idx → EReal) (ix2 (0 : Fin 1) q) := by
  obtain ⟨-, -, -, -, -, ⟨e0, e1⟩, -⟩ := block_index t
  show (V c main_v32 : S1x128.Idx → EReal) (((cfg0.win 5).blk t).view.emb (ix2 (0 : Fin 1) q)) = _
  congr 1
  funext a
  apply Fin.ext
  match a with
  | ⟨0, _⟩ => show win0_5.index t (0 : Fin 2) * 1 + 1 * 0 = 0; omega
  | ⟨1, _⟩ => show win0_5.index t (1 : Fin 2) * 128 + 1 * q.val = q.val; omega

/-- Row p, column q of the result's block at point t is row 10000 t + p, column q of the result array. -/
private theorem out_emb (t : Fin cfg0.N) (p : Fin 10000) (q : Fin 128) (n : Fin 50000)
    (hn : n.val = t.val * 10000 + p.val) :
    (((cfg0.win 6).blk t).view.emb (ix2 p q) : S50000x128.Idx) = ix2 n q := by
  obtain ⟨-, -, -, -, -, -, ⟨e0, e1⟩, -⟩ := block_index t
  funext a
  apply Fin.ext
  match a with
  | ⟨0, _⟩ => show win0_6.index t (0 : Fin 2) * 10000 + 1 * p.val = n.val; omega
  | ⟨1, _⟩ => show win0_6.index t (1 : Fin 2) * 128 + 1 * q.val = q.val; omega

/-- The layer's kernel form reads only row n of the row-blocked operands, column j of the weights and of the bias: two
    settings that agree there give the same value, whatever the numbers of rows. -/
private theorem rowsAt_congr {R R' : Nat}
    (X S : (⟨2, ![R, 128]⟩ : Shape).Idx → EReal) (I : (⟨2, ![R, 1]⟩ : Shape).Idx → EReal)
    (X' S' : (⟨2, ![R', 128]⟩ : Shape).Idx → EReal) (I' : (⟨2, ![R', 1]⟩ : Shape).Idx → EReal)
    (Wa Wb Wa' Wb' : (⟨2, ![128, 128]⟩ : Shape).Idx → EReal) (B B' : (⟨2, ![1, 128]⟩ : Shape).Idx → EReal)
    (n : Fin R) (n' : Fin R') (j : Fin 128)
    (hX : ∀ k : Fin 128, X (ix2 n k) = X' (ix2 n' k)) (hS : ∀ k : Fin 128, S (ix2 n k) = S' (ix2 n' k))
    (hI : I (ix2 n (0 : Fin 1)) = I' (ix2 n' (0 : Fin 1)))
    (hWa : ∀ k : Fin 128, Wa (ix2 k j) = Wa' (ix2 k j)) (hWb : ∀ k : Fin 128, Wb (ix2 k j) = Wb' (ix2 k j))
    (hB : B (ix2 (0 : Fin 1) j) = B' (ix2 (0 : Fin 1) j)) :
    Cert.Sage.rowsAt X S I Wa Wb B n j = Cert.Sage.rowsAt X' S' I' Wa' Wb' B' n' j := by
  unfold Cert.Sage.rowsAt
  rw [hI, hB]
  congr 3
  · exact Finset.sum_congr rfl fun k _ => by rw [hX k, hWa k]
  · exact Finset.sum_congr rfl fun k _ => by rw [hS k, hWb k]

/-- What point t writes back is block t of the layer's kernel form of the arrays the launch found. -/
private theorem flushed_eq (c : Dev nD) (t : Fin cfg0.N) :
    (dat0 (F := Ideal) V c).flushed 6 t = ((cfg0.win 6).blk t).view.read (Elt Ideal)
      (Cert.Sage.region (V c main_arg0) (V c main_v31) (V c main_v17) (V c main_v18) (V c main_v19) (V c main_v32)) := by
  show (cfg0.win 6).cut (grid0.coords t) ((dat0 (F := Ideal) V c).after 6 t) = _
  rw [after0_6]
  unfold out0_6
  rw [View.canon_unit_zero zero_offsets]
  simp only [View.ld_unit_zero (S := S10000x128) zero_offsets, View.ld_unit_zero (S := S10000x1) zero_offsets,
    View.ld_unit_zero (S := S128x128) zero_offsets, View.ld_unit_zero (S := S1x128) zero_offsets]
  funext j
  obtain ⟨p, q, rfl⟩ : ∃ (p : Fin 10000) (q : Fin 128), j = ix2 p q := ⟨j 0, j 1, eq_ix2 j⟩
  obtain ⟨-, -, -, -, -, -, -, ht⟩ := block_index t
  have hp : p.val < 10000 := p.isLt
  show k0_pay1 (F := Ideal) (iblk0 V c 1 t) (iblk0 V c 2 t) (iblk0 V c 0 t) (iblk0 V c 3 t) (iblk0 V c 4 t) (iblk0 V c 5 t) (ix2 p q)
      = Cert.Sage.region (V c main_arg0) (V c main_v31) (V c main_v17) (V c main_v18) (V c main_v19) (V c main_v32)
          (((cfg0.win 6).blk t).view.emb (ix2 p q))
  rw [Body.pay0_apply, out_emb t p q ⟨t.val * 10000 + p.val, by omega⟩ rfl, Cert.Sage.region_apply]
  exact rowsAt_congr _ _ _ _ _ _ _ _ _ _ _ _ p _ q
    (fun k => blk_x V c t p k _ rfl) (fun k => blk_s V c t p k _ rfl) (blk_inv V c t p _ rfl)
    (fun k => blk_wa V c t k q) (fun k => blk_wb V c t k q) (blk_b V c t q)

/-- An index of the result array is in point t's block iff each coordinate is in the block's range on its axis. -/
private theorem mem_blk (t : Fin cfg0.N) (i : S50000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v33).slice (win0_6.rect t)).set ↔ _
  rw [View.set_slice_whole, Rect.mem_set_unit]
  exact Iff.rfl

/-- Every index of the result array is written back by some point: row r by the point of block r / 10000. -/
private theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := point_of_block ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 128 ≤ (i 1).val ∧ (i 1).val < win0_6.index t (1 : Fin 2) * 128 + 128
    omega

/-- The result array after launch 0, from the arrays it found on entry. -/
theorem final (c : Dev nD) :
    (dat0 (F := Ideal) V c).arrAt 6 cfg0.N
      = Cert.Sage.region (V c main_arg0) (V c main_v31) (V c main_v17) (V c main_v18) (V c main_v19) (V c main_v32) :=
  (dat0 (F := Ideal) V c).arrAt_eq_of_cover 6
    (Cert.Sage.region (V c main_arg0) (V c main_v31) (V c main_v17) (V c main_v18) (V c main_v19) (V c main_v32))
    (fun t _ => flushed_eq V c t) cover

end Cert.KernelIdeal.Region0

end
-- ==== Proof.Region1.lean ====
/-
  Launch 1 as a whole: five grid points, point t holding rows 10000 t .. 10000 t + 9999 of the three row-blocked
  operands and of the result, and the two weights and the bias row whole at every point. Each point writes back the
  body's block of its own rows, the five blocks tile the 50000 rows, so the result array after the launch is the
  layer's kernel form of the arrays the launch found.
-/
import proofs.«407514_j51651276702105_3_alg».proof.Proof.Gen.KernelIdeal.Frame
import proofs.«407514_j51651276702105_3_alg».proof.Proof.KernelBody

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The pair of zero offsets is the constant zero. -/
private theorem zero_offsets : (![0, 0] : Fin 2 → Nat) = fun _ => 0 := funext fun a => by fin_cases a <;> rfl

/-- Where each window's block sits at grid point t: the three row-blocked operands and the result at block (t, 0),
    the two weights and the bias row at block (0, 0); and there are five points. -/
private theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ t.val < 5 :=
  (by decide +kernel : ∀ t : Fin grid1.N, _)

/-- Every one of the five row blocks is some point's. -/
private theorem point_of_block : ∀ r : Fin 5, ∃ t : Fin cfg1.N, win1_6.index t = ![r.val, 0] :=
  (by decide +kernel : ∀ r : Fin 5, ∃ t : Fin grid1.N, win1_6.index t = ![r.val, 0])

/-- The block of the node features at point t: its row p is row 10000 t + p of the array. -/
private theorem blk_x (c : Dev nD) (t : Fin cfg1.N) (p : Fin 10000) (k : Fin 128) (n : Fin 50000)
    (hn : n.val = t.val * 10000 + p.val) :
    (iblk1 V c 0 t : Vec Ideal S10000x128 .f32) (ix2 p k) = (V c main_v33 : S50000x128.Idx → EReal) (ix2 n k) := by
  obtain ⟨⟨e0, e1⟩, -⟩ := block_index t
  show (V c main_v33 : S50000x128.Idx → EReal) (((cfg1.win 0).blk t).view.emb (ix2 p k)) = _
  congr 1
  funext a
  apply Fin.ext
  match a with
  | ⟨0, _⟩ => show win1_0.index t (0 : Fin 2) * 10000 + 1 * p.val = n.val; omega
  | ⟨1, _⟩ => show win1_0.index t (1 : Fin 2) * 128 + 1 * k.val = k.val; omega

/-- The block of the neighbour sums at point t: its row p is row 10000 t + p of the array. -/
private theorem blk_s (c : Dev nD) (t : Fin cfg1.N) (p : Fin 10000) (k : Fin 128) (n : Fin 50000)
    (hn : n.val = t.val * 10000 + p.val) :
    (iblk1 V c 1 t : Vec Ideal S10000x128 .f32) (ix2 p k) = (V c main_v43 : S50000x128.Idx → EReal) (ix2 n k) := by
  obtain ⟨-, ⟨e0, e1⟩, -⟩ := block_index t
  show (V c main_v43 : S50000x128.Idx → EReal) (((cfg1.win 1).blk t).view.emb (ix2 p k)) = _
  congr 1
  funext a
  apply Fin.ext
  match a with
  | ⟨0, _⟩ => show win1_1.index t (0 : Fin 2) * 10000 + 1 * p.val = n.val; omega
  | ⟨1, _⟩ => show win1_1.index t (1 : Fin 2) * 128 + 1 * k.val = k.val; omega

/-- The block of the per-node factors at point t: its row p is row 10000 t + p of the column. -/
private theorem blk_inv (c : Dev nD) (t : Fin cfg1.N) (p : Fin 10000) (n : Fin 50000)
    (hn : n.val = t.val * 10000 + p.val) :
    (iblk1 V c 2 t : Vec Ideal S10000x1 .f32) (ix2 p (0 : Fin 1)) = (V c main_v17 : S50000x1.Idx → EReal) (ix2 n (0 : Fin 1)) := by
  obtain ⟨-, -, ⟨e0, e1⟩, -⟩ := block_index t
  show (V c main_v17 : S50000x1.Idx → EReal) (((cfg1.win 2).blk t).view.emb (ix2 p (0 : Fin 1))) = _
  congr 1
  funext a
  apply Fin.ext
  match a with
  | ⟨0, _⟩ => show win1_2.index t (0 : Fin 2) * 10000 + 1 * p.val = n.val; omega
  | ⟨1, _⟩ => show win1_2.index t (1 : Fin 2) * 1 + 1 * 0 = 0; omega

/-- The first weight is staged whole at every point. -/
private theorem blk_wa (c : Dev nD) (t : Fin cfg1.N) (k q : Fin 128) :
    (iblk1 V c 3 t : Vec Ideal S128x128 .f32) (ix2 k q) = (V c main_v20 : S128x128.Idx → EReal) (ix2 k q) := by
  obtain ⟨-, -, -, ⟨e0, e1⟩, -⟩ := block_index t
  show (V c main_v20 : S128x128.Idx → EReal) (((cfg1.win 3).blk t).view.emb (ix2 k q)) = _
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The second weight is staged whole at every point. -/
private theorem blk_wb (c : Dev nD) (t : Fin cfg1.N) (k q : Fin 128) :
    (iblk1 V c 4 t : Vec Ideal S128x128 .f32) (ix2 k q) = (V c main_v21 : S128x128.Idx → EReal) (ix2 k q) := by
  obtain ⟨-, -, -, -, ⟨e0, e1⟩, -⟩ := block_index t
  show (V c main_v21 : S128x128.Idx → EReal) (((cfg1.win 4).blk t).view.emb (ix2 k q)) = _
  congr 1
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-- The bias row is staged whole at every point. -/
private theorem blk_b (c : Dev nD) (t : Fin cfg1.N) (q : Fin 128) :
    (iblk1 V c 5 t : Vec Ideal S1x128 .f32) (ix2 (0 : Fin 1) q) = (V c main_v44 : S1x128.Idx → EReal) (ix2 (0 : Fin 1) q) := by
  obtain ⟨-, -, -, -, -, ⟨e0, e1⟩, -⟩ := block_index t
  show (V c main_v44 : S1x128.Idx → EReal) (((cfg1.win 5).blk t).view.emb (ix2 (0 : Fin 1) q)) = _
  congr 1
  funext a
  apply Fin.ext
  match a with
  | ⟨0, _⟩ => show win1_5.index t (0 : Fin 2) * 1 + 1 * 0 = 0; omega
  | ⟨1, _⟩ => show win1_5.index t (1 : Fin 2) * 128 + 1 * q.val = q.val; omega

/-- Row p, column q of the result's block at point t is row 10000 t + p, column q of the result array. -/
private theorem out_emb (t : Fin cfg1.N) (p : Fin 10000) (q : Fin 128) (n : Fin 50000)
    (hn : n.val = t.val * 10000 + p.val) :
    (((cfg1.win 6).blk t).view.emb (ix2 p q) : S50000x128.Idx) = ix2 n q := by
  obtain ⟨-, -, -, -, -, -, ⟨e0, e1⟩, -⟩ := block_index t
  funext a
  apply Fin.ext
  match a with
  | ⟨0, _⟩ => show win1_6.index t (0 : Fin 2) * 10000 + 1 * p.val = n.val; omega
  | ⟨1, _⟩ => show win1_6.index t (1 : Fin 2) * 128 + 1 * q.val = q.val; omega

/-- The layer's kernel form reads only row n of the row-blocked operands, column j of the weights and of the bias: two
    settings that agree there give the same value, whatever the numbers of rows. -/
private theorem rowsAt_congr {R R' : Nat}
    (X S : (⟨2, ![R, 128]⟩ : Shape).Idx → EReal) (I : (⟨2, ![R, 1]⟩ : Shape).Idx → EReal)
    (X' S' : (⟨2, ![R', 128]⟩ : Shape).Idx → EReal) (I' : (⟨2, ![R', 1]⟩ : Shape).Idx → EReal)
    (Wa Wb Wa' Wb' : (⟨2, ![128, 128]⟩ : Shape).Idx → EReal) (B B' : (⟨2, ![1, 128]⟩ : Shape).Idx → EReal)
    (n : Fin R) (n' : Fin R') (j : Fin 128)
    (hX : ∀ k : Fin 128, X (ix2 n k) = X' (ix2 n' k)) (hS : ∀ k : Fin 128, S (ix2 n k) = S' (ix2 n' k))
    (hI : I (ix2 n (0 : Fin 1)) = I' (ix2 n' (0 : Fin 1)))
    (hWa : ∀ k : Fin 128, Wa (ix2 k j) = Wa' (ix2 k j)) (hWb : ∀ k : Fin 128, Wb (ix2 k j) = Wb' (ix2 k j))
    (hB : B (ix2 (0 : Fin 1) j) = B' (ix2 (0 : Fin 1) j)) :
    Cert.Sage.rowsAt X S I Wa Wb B n j = Cert.Sage.rowsAt X' S' I' Wa' Wb' B' n' j := by
  unfold Cert.Sage.rowsAt
  rw [hI, hB]
  congr 3
  · exact Finset.sum_congr rfl fun k _ => by rw [hX k, hWa k]
  · exact Finset.sum_congr rfl fun k _ => by rw [hS k, hWb k]

/-- What point t writes back is block t of the layer's kernel form of the arrays the launch found. -/
private theorem flushed_eq (c : Dev nD) (t : Fin cfg1.N) :
    (dat1 (F := Ideal) V c).flushed 6 t = ((cfg1.win 6).blk t).view.read (Elt Ideal)
      (Cert.Sage.region (V c main_v33) (V c main_v43) (V c main_v17) (V c main_v20) (V c main_v21) (V c main_v44)) := by
  show (cfg1.win 6).cut (grid1.coords t) ((dat1 (F := Ideal) V c).after 6 t) = _
  rw [after1_6]
  unfold out1_6
  rw [View.canon_unit_zero zero_offsets]
  simp only [View.ld_unit_zero (S := S10000x128) zero_offsets, View.ld_unit_zero (S := S10000x1) zero_offsets,
    View.ld_unit_zero (S := S128x128) zero_offsets, View.ld_unit_zero (S := S1x128) zero_offsets]
  funext j
  obtain ⟨p, q, rfl⟩ : ∃ (p : Fin 10000) (q : Fin 128), j = ix2 p q := ⟨j 0, j 1, eq_ix2 j⟩
  obtain ⟨-, -, -, -, -, -, -, ht⟩ := block_index t
  have hp : p.val < 10000 := p.isLt
  show k1_pay1 (F := Ideal) (iblk1 V c 1 t) (iblk1 V c 2 t) (iblk1 V c 0 t) (iblk1 V c 3 t) (iblk1 V c 4 t) (iblk1 V c 5 t) (ix2 p q)
      = Cert.Sage.region (V c main_v33) (V c main_v43) (V c main_v17) (V c main_v20) (V c main_v21) (V c main_v44)
          (((cfg1.win 6).blk t).view.emb (ix2 p q))
  rw [Body.pay1_apply, out_emb t p q ⟨t.val * 10000 + p.val, by omega⟩ rfl, Cert.Sage.region_apply]
  exact rowsAt_congr _ _ _ _ _ _ _ _ _ _ _ _ p _ q
    (fun k => blk_x V c t p k _ rfl) (fun k => blk_s V c t p k _ rfl) (blk_inv V c t p _ rfl)
    (fun k => blk_wa V c t k q) (fun k => blk_wb V c t k q) (blk_b V c t q)

/-- An index of the result array is in point t's block iff each coordinate is in the block's range on its axis. -/
private theorem mem_blk (t : Fin cfg1.N) (i : S50000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v45).slice (win1_6.rect t)).set ↔ _
  rw [View.set_slice_whole, Rect.mem_set_unit]
  exact Iff.rfl

/-- Every index of the result array is written back by some point: row r by the point of block r / 10000. -/
private theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := point_of_block ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 128 ≤ (i 1).val ∧ (i 1).val < win1_6.index t (1 : Fin 2) * 128 + 128
    omega

/-- The result array after launch 1, from the arrays it found on entry. -/
theorem final (c : Dev nD) :
    (dat1 (F := Ideal) V c).arrAt 6 cfg1.N
      = Cert.Sage.region (V c main_v33) (V c main_v43) (V c main_v17) (V c main_v20) (V c main_v21) (V c main_v44) :=
  (dat1 (F := Ideal) V c).arrAt_eq_of_cover 6
    (Cert.Sage.region (V c main_v33) (V c main_v43) (V c main_v17) (V c main_v20) (V c main_v21) (V c main_v44))
    (fun t _ => flushed_eq V c t) cover

end Cert.KernelIdeal.Region1

end
-- ==== Proof.KernelValue.lean ====
/-
  The kernel program's result as two launches of the layer's kernel form.

  Before the first launch the host computes, from the arguments, the neighbour sum of X, the reciprocal of the clamped
  degree (the degree counted at the target ids brought into range), the two halves of W1 and the bias as a row; the
  first launch leaves the hidden features H. Between the launches the host computes the neighbour sum of H and the
  second bias row; the second launch, reading H, that sum, the same reciprocal degree and the halves of W2, leaves
  the result. Each buffer a launch reads is followed back through the segments to the arguments: a buffer no
  segment writes keeps its contents, a launch's input array is as the launch found it, its output array is what its
  five points wrote.
-/
import proofs.«407514_j51651276702105_3_alg».proof.Proof.Gen.KernelIdeal.Frame
import proofs.«407514_j51651276702105_3_alg».proof.Proof.Chain
import proofs.«407514_j51651276702105_3_alg».proof.Proof.Region0
import proofs.«407514_j51651276702105_3_alg».proof.Proof.Region1
import Idealize.ShloMosaic.Lib.StableHlo.Run

set_option maxRecDepth 16384

noncomputable section

namespace Cert.KernelIdeal.KValue

open Cert.KernelIdeal Cert.KernelIdeal.Gen Cert.KernelIdeal.Chain
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- The arguments as launched, by name. -/
abbrev aX (c : Dev nD) : FVec Ideal S50000x128 .f32 := m ((c : Thread nD τ).loc main_arg0)
abbrev aE (c : Dev nD) : IVec S2x800000 32 := m ((c : Thread nD τ).loc main_arg1)
abbrev aW1 (c : Dev nD) : FVec Ideal S256x128 .f32 := m ((c : Thread nD τ).loc main_arg2)
abbrev aB1 (c : Dev nD) : FVec Ideal S128 .f32 := m ((c : Thread nD τ).loc main_arg3)
abbrev aW2 (c : Dev nD) : FVec Ideal S256x128 .f32 := m ((c : Thread nD τ).loc main_arg4)
abbrev aB2 (c : Dev nD) : FVec Ideal S128 .f32 := m ((c : Thread nD τ).loc main_arg5)

/-- The reciprocal clamped degree the kernel program computes: the degree counted at the wrapped target ids. -/
def kInv (c : Dev nD) : FVec Ideal S50000x1 .f32 := invDeg (degAt (wrap (tgt (aE m c))))

/-! ## What the first launch finds -/

set_option maxHeartbeats 4000000 in
theorem W1_arg0 (c : Dev nD) : (W1 m ρ c (Proc.devRef .tc main_arg0) : S50000x128.Idx → EReal) = aX m c := by
  show StableHlo.after hostOps0 (W0 m ρ c) (Proc.devRef .tc main_arg0) = _
  after_results_simp <;> rfl

set_option maxHeartbeats 4000000 in
theorem W1_v31 (c : Dev nD) : (W1 m ρ c (Proc.devRef .tc main_v31) : S50000x128.Idx → EReal) = nsum (aX m c) (aE m c) := by
  show StableHlo.after hostOps0 (W0 m ρ c) (Proc.devRef .tc main_v31) = _
  after_results_simp <;> rfl

set_option maxHeartbeats 4000000 in
theorem W1_v17 (c : Dev nD) : (W1 m ρ c (Proc.devRef .tc main_v17) : S50000x1.Idx → EReal) = kInv m c := by
  show StableHlo.after hostOps0 (W0 m ρ c) (Proc.devRef .tc main_v17) = _
  after_results_simp <;> rfl

set_option maxHeartbeats 4000000 in
theorem W1_v18 (c : Dev nD) : (W1 m ρ c (Proc.devRef .tc main_v18) : S128x128.Idx → EReal) = top (aW1 m c) := by
  show StableHlo.after hostOps0 (W0 m ρ c) (Proc.devRef .tc main_v18) = _
  after_results_simp <;> rfl

set_option maxHeartbeats 4000000 in
theorem W1_v19 (c : Dev nD) : (W1 m ρ c (Proc.devRef .tc main_v19) : S128x128.Idx → EReal) = bot (aW1 m c) := by
  show StableHlo.after hostOps0 (W0 m ρ c) (Proc.devRef .tc main_v19) = _
  after_results_simp <;> rfl

set_option maxHeartbeats 4000000 in
theorem W1_v20 (c : Dev nD) : (W1 m ρ c (Proc.devRef .tc main_v20) : S128x128.Idx → EReal) = top (aW2 m c) := by
  show StableHlo.after hostOps0 (W0 m ρ c) (Proc.devRef .tc main_v20) = _
  after_results_simp <;> rfl

set_option maxHeartbeats 4000000 in
theorem W1_v21 (c : Dev nD) : (W1 m ρ c (Proc.devRef .tc main_v21) : S128x128.Idx → EReal) = bot (aW2 m c) := by
  show StableHlo.after hostOps0 (W0 m ρ c) (Proc.devRef .tc main_v21) = _
  after_results_simp <;> rfl

set_option maxHeartbeats 4000000 in
theorem W1_v32 (c : Dev nD) : (W1 m ρ c (Proc.devRef .tc main_v32) : S1x128.Idx → EReal) = row (aB1 m c) := by
  show StableHlo.after hostOps0 (W0 m ρ c) (Proc.devRef .tc main_v32) = _
  after_results_simp <;> rfl

set_option maxHeartbeats 4000000 in
theorem W1_v1 (c : Dev nD) : (W1 m ρ c (Proc.devRef .tc main_v1) : S800000.Idx → BitVec 32) = src (aE m c) := by
  show StableHlo.after hostOps0 (W0 m ρ c) (Proc.devRef .tc main_v1) = _
  after_results_simp <;> rfl

set_option maxHeartbeats 4000000 in
theorem W1_v3 (c : Dev nD) : (W1 m ρ c (Proc.devRef .tc main_v3) : S800000.Idx → BitVec 32) = tgt (aE m c) := by
  show StableHlo.after hostOps0 (W0 m ρ c) (Proc.devRef .tc main_v3) = _
  after_results_simp <;> rfl

set_option maxHeartbeats 4000000 in
theorem W1_arg5 (c : Dev nD) : (W1 m ρ c (Proc.devRef .tc main_arg5) : S128.Idx → EReal) = aB2 m c := by
  show StableHlo.after hostOps0 (W0 m ρ c) (Proc.devRef .tc main_arg5) = _
  after_results_simp <;> rfl

/-! ## The hidden features: what the first launch leaves -/

/-- The hidden features the kernel program computes. -/
def kH (c : Dev nD) : FVec Ideal S50000x128 .f32 :=
  Cert.Sage.region (aX m c) (nsum (aX m c) (aE m c)) (kInv m c) (top (aW1 m c)) (bot (aW1 m c)) (row (aB1 m c))

theorem W2_v33 (c : Dev nD) : (W2 m ρ c (Proc.devRef .tc main_v33) : S50000x128.Idx → EReal) = kH m c := by
  refine (W2_arr m ρ c 6).trans ((Region0.final (V1 m ρ) c).trans ?_)
  show Cert.Sage.region (W1 m ρ c (Proc.devRef .tc main_arg0)) (W1 m ρ c (Proc.devRef .tc main_v31)) (W1 m ρ c (Proc.devRef .tc main_v17))
    (W1 m ρ c (Proc.devRef .tc main_v18)) (W1 m ρ c (Proc.devRef .tc main_v19)) (W1 m ρ c (Proc.devRef .tc main_v32)) = _
  rw [W1_arg0, W1_v31, W1_v17, W1_v18, W1_v19, W1_v32]
  rfl

/-- An input array of the first launch is, after it, as the launch found it. -/
theorem W2_v17 (c : Dev nD) : (W2 m ρ c (Proc.devRef .tc main_v17) : S50000x1.Idx → EReal) = kInv m c :=
  ((W2_arr m ρ c 2).trans (((dat0 (V1 m ρ) c).arrAt_in 2 rfl _).trans (A_eq0 (V1 m ρ) c 2))).trans (W1_v17 m ρ c)

/-- A buffer that is no array of the first launch keeps its contents through it. -/
theorem W2_v1 (c : Dev nD) : (W2 m ρ c (Proc.devRef .tc main_v1) : S800000.Idx → BitVec 32) = src (aE m c) :=
  (W2_of_ne m ρ c main_v1 (by decide)).trans (W1_v1 m ρ c)
theorem W2_v3 (c : Dev nD) : (W2 m ρ c (Proc.devRef .tc main_v3) : S800000.Idx → BitVec 32) = tgt (aE m c) :=
  (W2_of_ne m ρ c main_v3 (by decide)).trans (W1_v3 m ρ c)
theorem W2_v20 (c : Dev nD) : (W2 m ρ c (Proc.devRef .tc main_v20) : S128x128.Idx → EReal) = top (aW2 m c) :=
  (W2_of_ne m ρ c main_v20 (by decide)).trans (W1_v20 m ρ c)
theorem W2_v21 (c : Dev nD) : (W2 m ρ c (Proc.devRef .tc main_v21) : S128x128.Idx → EReal) = bot (aW2 m c) :=
  (W2_of_ne m ρ c main_v21 (by decide)).trans (W1_v21 m ρ c)
theorem W2_arg5 (c : Dev nD) : (W2 m ρ c (Proc.devRef .tc main_arg5) : S128.Idx → EReal) = aB2 m c :=
  (W2_of_ne m ρ c main_arg5 (by decide)).trans (W1_arg5 m ρ c)

/-! ## What the second launch finds -/

/-- The neighbour sum from its three ingredients: the features, the source ids and the target ids. -/
def nsumOf (X : FVec Ideal S50000x128 .f32) (s t : IVec S800000 32) : FVec Ideal S50000x128 .f32 :=
  Host.scatterAdd scatter_S50000x128_S800000x1_S800000x128_1_0_0_1
    (broadcastInDim S50000x128 ![] bcast_S_S50000x128 (constant S_ .f32 0x00000000#32))
    (col t)
    (Host.gather gather_S50000x128_S800000x1_S800000x128_1_0_n_n_0_1_1128 X (col (wrap s)))

theorem nsum_eq (X : FVec Ideal S50000x128 .f32) (E : IVec S2x800000 32) : nsum X E = nsumOf X (src E) (tgt E) := rfl

set_option maxHeartbeats 4000000 in
theorem W3_v33 (c : Dev nD) : (W3 m ρ c (Proc.devRef .tc main_v33) : S50000x128.Idx → EReal) = kH m c := by
  refine Eq.trans ?_ (W2_v33 m ρ c)
  show StableHlo.after hostOps1 (W2 m ρ c) (Proc.devRef .tc main_v33) = _
  after_results_simp <;> rfl

set_option maxHeartbeats 4000000 in
theorem W3_v43 (c : Dev nD) : (W3 m ρ c (Proc.devRef .tc main_v43) : S50000x128.Idx → EReal) = nsum (kH m c) (aE m c) := by
  have e : (W3 m ρ c (Proc.devRef .tc main_v43) : S50000x128.Idx → EReal)
      = nsumOf (W2 m ρ c (Proc.devRef .tc main_v33)) (W2 m ρ c (Proc.devRef .tc main_v1)) (W2 m ρ c (Proc.devRef .tc main_v3)) := by
    show StableHlo.after hostOps1 (W2 m ρ c) (Proc.devRef .tc main_v43) = _
    after_results_simp <;> rfl
  rw [e, W2_v33, W2_v1, W2_v3, nsum_eq]

set_option maxHeartbeats 4000000 in
theorem W3_v17 (c : Dev nD) : (W3 m ρ c (Proc.devRef .tc main_v17) : S50000x1.Idx → EReal) = kInv m c := by
  refine Eq.trans ?_ (W2_v17 m ρ c)
  show StableHlo.after hostOps1 (W2 m ρ c) (Proc.devRef .tc main_v17) = _
  after_results_simp <;> rfl

set_option maxHeartbeats 4000000 in
theorem W3_v20 (c : Dev nD) : (W3 m ρ c (Proc.devRef .tc main_v20) : S128x128.Idx → EReal) = top (aW2 m c) := by
  refine Eq.trans ?_ (W2_v20 m ρ c)
  show StableHlo.after hostOps1 (W2 m ρ c) (Proc.devRef .tc main_v20) = _
  after_results_simp <;> rfl

set_option maxHeartbeats 4000000 in
theorem W3_v21 (c : Dev nD) : (W3 m ρ c (Proc.devRef .tc main_v21) : S128x128.Idx → EReal) = bot (aW2 m c) := by
  refine Eq.trans ?_ (W2_v21 m ρ c)
  show StableHlo.after hostOps1 (W2 m ρ c) (Proc.devRef .tc main_v21) = _
  after_results_simp <;> rfl

set_option maxHeartbeats 4000000 in
theorem W3_v44 (c : Dev nD) : (W3 m ρ c (Proc.devRef .tc main_v44) : S1x128.Idx → EReal) = row (aB2 m c) := by
  have e : (W3 m ρ c (Proc.devRef .tc main_v44) : S1x128.Idx → EReal) = row (W2 m ρ c (Proc.devRef .tc main_arg5)) := by
    show StableHlo.after hostOps1 (W2 m ρ c) (Proc.devRef .tc main_v44) = _
    after_results_simp <;> rfl
  rw [e, W2_arg5]

/-! ## The result: what the second launch leaves -/

/-- The result array after the run, as a function of the arguments. -/
def kOut (c : Dev nD) : FVec Ideal S50000x128 .f32 :=
  Cert.Sage.region (kH m c) (nsum (kH m c) (aE m c)) (kInv m c) (top (aW2 m c)) (bot (aW2 m c)) (row (aB2 m c))

theorem W4_v45 (c : Dev nD) : (W4 m ρ c (Proc.devRef .tc main_v45) : S50000x128.Idx → EReal) = kOut m c := by
  refine (W4_arr m ρ c 6).trans ((Region1.final (V3 m ρ) c).trans ?_)
  show Cert.Sage.region (W3 m ρ c (Proc.devRef .tc main_v33)) (W3 m ρ c (Proc.devRef .tc main_v43)) (W3 m ρ c (Proc.devRef .tc main_v17))
    (W3 m ρ c (Proc.devRef .tc main_v20)) (W3 m ρ c (Proc.devRef .tc main_v21)) (W3 m ρ c (Proc.devRef .tc main_v44)) = _
  rw [W3_v33, W3_v43, W3_v17, W3_v20, W3_v21, W3_v44]
  rfl

end Cert.KernelIdeal.KValue

end
-- ==== Proof.KernelForm.lean ====
/-
  The kernel's form of a layer is the layer. The launches read the reciprocal of the clamped degree as a column, the
  two halves of the weight as 128 x 128 arrays and the bias as a row; read at an index these are 1 / max(D[n],1),
  W[k,j] and W[128+k,j], and b[j], which is what the specification's joining lemma asks for.
-/
import proofs.«407514_j51651276702105_3_alg».proof.Proof.Chain
import proofs.«407514_j51651276702105_3_alg».proof.Proof.Spec
import Idealize.ShloMosaic.Lib.Pipeline.Value
import Idealize.ShloMosaic.Lib.ValueLayout
import Idealize.ShloMosaic.Lib.ValueIdx
import Idealize.ShloMosaic.Lib.IdealHost

noncomputable section

namespace Cert.KernelIdeal.KForm

open Cert.KernelIdeal Cert.KernelIdeal.Gen Cert.KernelIdeal.Chain Idealize.ShloMosaic Idealize.ShloMosaic.ValueIdx

/-- The splat of the word for one, read anywhere, is one. -/
theorem ones_apply (i : S50000.Idx) :
    broadcastInDim S50000 ![] bcast_S_S50000 (constant (F := Ideal) S_ .f32 0x3F800000#32) i = 1 := by
  rw [broadcastInDim_apply _ bcast_S_S50000 _ i ix0 (fun a => a.elim0), constant_apply]
  exact Ideal.ofBits_one_f32

/-- The reciprocal-degree column at node n is one over the clamped degree of n. -/
theorem invDeg_apply (D : FVec Ideal S50000 .f32) (n : Fin 50000) :
    invDeg D (ix2 n (0 : Fin 1)) = Ideal.div 1 (max (D (ix1 n)) 1) := by
  unfold invDeg
  rw [shapeCast_apply _ shapeCasts_S50000_S50000x1 (ix2 n (0 : Fin 1)) (ix1 n) (by
    rw [Shape.rowMajor_val_two, Shape.rowMajor_val_one]
    show n.val = n.val * 1 + 0
    omega)]
  show Ideal.div (broadcastInDim S50000 ![] bcast_S_S50000 (constant (F := Ideal) S_ .f32 0x3F800000#32) (ix1 n))
      (max (D (ix1 n)) (broadcastInDim S50000 ![] bcast_S_S50000 (constant (F := Ideal) S_ .f32 0x3F800000#32) (ix1 n))) = _
  rw [ones_apply]

/-- The top half of the weight at (k, j) is the weight at (k, j). -/
theorem top_apply (W : FVec Ideal S256x128 .f32) (k j : Fin 128) : top W (ix2 k j) = W (ix2 (Cert.Sage.lo k) j) := by
  unfold top
  exact extractStridedSlice_apply _ W slices_S256x128_S128x128_0_0 (ix2 k j) (ix2 (Cert.Sage.lo k) j) (fun a => by
    match a with
    | ⟨0, _⟩ => show k.val = 0 + k.val; omega
    | ⟨1, _⟩ => show j.val = 0 + j.val; omega)

/-- The bottom half of the weight at (k, j) is the weight at (128 + k, j). -/
theorem bot_apply (W : FVec Ideal S256x128 .f32) (k j : Fin 128) : bot W (ix2 k j) = W (ix2 (Cert.Sage.hi k) j) := by
  unfold bot
  exact extractStridedSlice_apply _ W slices_S256x128_S128x128_128_0 (ix2 k j) (ix2 (Cert.Sage.hi k) j) (fun a => by
    match a with
    | ⟨0, _⟩ => show 128 + k.val = 128 + k.val; rfl
    | ⟨1, _⟩ => show j.val = 0 + j.val; omega)

/-- The bias as a row, at feature j, is the bias at j. -/
theorem row_apply (b : FVec Ideal S128 .f32) (j : Fin 128) : row b (ix2 (0 : Fin 1) j) = b (ix1 j) := by
  unfold row
  exact shapeCast_a_1a_apply b shapeCasts_S128_S1x128 0 j

/-- The kernel's form of a layer, fed the reciprocal clamped degree, the halves of W and the bias row, is the layer. -/
theorem region_eq_layer (X S : FVec Ideal S50000x128 .f32) (D : FVec Ideal S50000 .f32) (W : FVec Ideal S256x128 .f32)
    (b : FVec Ideal S128 .f32) :
    Cert.Sage.region X S (invDeg D) (top W) (bot W) (row b) = Cert.Sage.layer X S D W b := by
  funext i
  obtain ⟨n, j, rfl⟩ : ∃ (n : Fin 50000) (j : Fin 128), i = ix2 n j := ⟨i 0, i 1, eq_ix2 i⟩
  rw [Cert.Sage.region_apply, Cert.Sage.layer_apply]
  exact Cert.Sage.rowsAt_eq_layerAt X S (invDeg D) (top W) (bot W) (row b) D W b
    (invDeg_apply D) (top_apply W) (bot_apply W) (row_apply b) n j

end Cert.KernelIdeal.KForm

end
-- ==== Proof.RefChain.lean ====
/-
  The host computations both programs share, each named once as a function of whole arrays, in the reference program's
  vocabulary: the two rows of the edge list, a node id counted from the end brought into range, the sum of the
  features gathered along the incoming edges, and the in-degree. The proof never opens the gather or the
  accumulating scatter: it only needs that both programs apply the same ones to the same arrays.
-/
import proofs.«407514_j51651276702105_3_alg».proof.Proof.Gen.ReferenceIdeal
import Idealize.ShloMosaic.PureOps.Ideal

noncomputable section

namespace Cert.ReferenceIdeal.Chain

open Cert.ReferenceIdeal Cert.ReferenceIdeal.Gen Idealize.ShloMosaic

/-- Row 0 of the edge list: the source node of every edge. -/
def src (E : IVec S2x800000 32) : IVec S800000 32 :=
  shapeCast S800000 (extractStridedSlice S1x800000 ![0, 0] E slices_S2x800000_S1x800000_0_0) shapeCasts_S1x800000_S800000

/-- Row 1 of the edge list: the target node of every edge. -/
def tgt (E : IVec S2x800000 32) : IVec S800000 32 :=
  shapeCast S800000 (extractStridedSlice S1x800000 ![1, 0] E slices_S2x800000_S1x800000_1_0) shapeCasts_S1x800000_S800000

/-- A node id counted from the end (a negative one) brought into range by adding the number of nodes. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of ids as the one-column index array a gather or scatter takes. -/
def col (v : IVec S800000 32) : IVec S800000x1 32 := broadcastInDim S800000x1 ![0] bcast_S800000_S800000x1_0 v

/-- The neighbour sum: the rows of X gathered at the edges' sources, accumulated at the edges' targets. -/
def nsum (X : FVec Ideal S50000x128 .f32) (E : IVec S2x800000 32) : FVec Ideal S50000x128 .f32 :=
  Host.scatterAdd scatter_S50000x128_S800000x1_S800000x128_1_0_0_1
    (broadcastInDim S50000x128 ![] bcast_S_S50000x128 (constant S_ .f32 0x00000000#32))
    (col (tgt E))
    (Host.gather gather_S50000x128_S800000x1_S800000x128_1_0_n_n_0_1_1128 X (col (wrap (src E))))

/-- The number of edges arriving at each node, counted at the given ids. -/
def degAt (ids : IVec S800000 32) : FVec Ideal S50000 .f32 :=
  Host.scatterAdd scatter_S50000_S800000x1_S800000_n_0_0_1
    (broadcastInDim S50000 ![] bcast_S_S50000 (constant S_ .f32 0x00000000#32))
    (col ids)
    (broadcastInDim S800000 ![] bcast_S_S800000 (constant S_ .f32 0x3F800000#32))

end Cert.ReferenceIdeal.Chain

end
-- ==== Proof.RefValue.lean ====
/-
  The reference's result as two layers. Its first layer lays X and the mean of the gathered rows side by side and
  contracts the 256-wide row against W1 in one product; the second does the same with the first layer's output. Read
  at node n, feature j, each is the layer function of the specification: the 256-long sum splits into the sum over
  the X half and the sum over the mean half.
-/
import proofs.«407514_j51651276702105_3_alg».proof.Proof.Gen.ReferenceIdeal.Read
import proofs.«407514_j51651276702105_3_alg».proof.Proof.RefChain
import proofs.«407514_j51651276702105_3_alg».proof.Proof.Spec

noncomputable section

namespace Cert.ReferenceIdeal.RefValue

open Cert.ReferenceIdeal Cert.ReferenceIdeal.Gen Cert.ReferenceIdeal.Chain Idealize.ShloMosaic Idealize.ShloMosaic.ValueIdx
open scoped BigOperators

/-! ## The shared host chains, named

The reference's gather-then-scatter and its degree count are the chain module's functions applied to the same
arguments: the stages spell the same operations one at a time. Neither the gather nor the accumulating scatter is
opened. -/

/-- The first layer's neighbour sum is the chain's. -/
private theorem nsum_first (x0 : FVec Ideal S50000x128 .f32) (x1 : IVec S2x800000 32) :
    Read.val_main_v13 (F := Ideal) x0 x1 = nsum x0 x1 := by
  unfold Read.val_main_v13 Read.val_main_v12 Read.val_main_v11 Read.val_main_v10 Read.val_main_v9 Read.val_main_v8
    Read.val_main_v7 Read.val_main_v6 Read.val_main_v5 Read.val_main_v4 Read.val_main_v3 Read.val_main_v2
    Read.val_main_v1 Read.val_main_v0 Read.val_main_c Read.val_main_c_0 Read.val_main_cst nsum col tgt wrap src
  rfl

/-- The first layer's in-degree is the chain's, counted at the edges' targets. -/
private theorem deg_first (x1 : IVec S2x800000 32) :
    Read.val_main_v17 (F := Ideal) x1 = degAt (tgt x1) := by
  unfold Read.val_main_v17 Read.val_main_v16 Read.val_main_v15 Read.val_main_v14 Read.val_main_v3 Read.val_main_v2
    Read.val_main_cst_1 Read.val_main_cst_2 degAt col tgt
  rfl

/-- The second layer's neighbour sum is the chain's, of the first layer's output. -/
private theorem nsum_second (x0 : FVec Ideal S50000x128 .f32) (x1 : IVec S2x800000 32) (x2 : FVec Ideal S256x128 .f32)
    (x3 : FVec Ideal S128 .f32) :
    Read.val_main_v38 (F := Ideal) x0 x1 x2 x3 = nsum (Read.val_main_v28 (F := Ideal) x0 x1 x2 x3) x1 := by
  unfold Read.val_main_v38 Read.val_main_v37 Read.val_main_v36 Read.val_main_v35 Read.val_main_v34 Read.val_main_v33
    Read.val_main_v32 Read.val_main_v31 Read.val_main_v30 Read.val_main_v29 Read.val_main_v3 Read.val_main_v2
    Read.val_main_v1 Read.val_main_v0 Read.val_main_c_4 Read.val_main_c_5 Read.val_main_cst_6 nsum col tgt wrap src
  rfl

/-- The second layer's in-degree is the same count. -/
private theorem deg_second (x1 : IVec S2x800000 32) :
    Read.val_main_v42 (F := Ideal) x1 = degAt (tgt x1) := by
  unfold Read.val_main_v42 Read.val_main_v41 Read.val_main_v40 Read.val_main_v39 Read.val_main_v3 Read.val_main_v2
    Read.val_main_cst_7 Read.val_main_cst_8 degAt col tgt
  rfl

/-! ## Two arrays laid side by side, read at a column of either half -/

/-- Column k of the first half of the joined row is the first array's column k. -/
private theorem joined_lo (X Q : FVec Ideal S50000x128 .f32) (n : Fin 50000) (k : Fin 128) :
    concatenate S50000x256 1 [⟨S50000x128, X⟩, ⟨S50000x128, Q⟩] concatenates_S50000x128_S50000x128_S50000x256_d1
        (ix2 n (Cert.Sage.lo k)) = X (ix2 n k) :=
  concatenate_pair_apply_left (1 : Fin S50000x256.rank) X Q concatenates_S50000x128_S50000x128_S50000x256_d1
    (ix2 n (Cert.Sage.lo k)) rfl (ix2 n k) (fun b => match b with
      | ⟨0, _⟩ => rfl
      | ⟨1, _⟩ => rfl)

/-- Column k of the second half of the joined row, which sits at position 128 + k, is the second array's column k. -/
private theorem joined_hi (X Q : FVec Ideal S50000x128 .f32) (n : Fin 50000) (k : Fin 128) :
    concatenate S50000x256 1 [⟨S50000x128, X⟩, ⟨S50000x128, Q⟩] concatenates_S50000x128_S50000x128_S50000x256_d1
        (ix2 n (Cert.Sage.hi k)) = Q (ix2 n k) :=
  concatenate_pair_apply_right (1 : Fin S50000x256.rank) X Q concatenates_S50000x128_S50000x128_S50000x256_d1
    (ix2 n (Cert.Sage.hi k)) rfl rfl (ix2 n k)
    (fun b => match b with
      | ⟨0, _⟩ => fun _ => rfl
      | ⟨1, _⟩ => fun hb => absurd (Fin.ext rfl) hb)
    (by show k.val + 128 = 128 + k.val; omega)

/-! ## One layer, from what the stages say at an index

Whatever array R reads at node n, feature j as the 256-wide contraction of the joined row (X[n,:], S[n,:] / Dc[n,:])
against W plus the bias, clipped at zero, where Dc[n,k] is the degree of n clamped below by one, is the
specification's layer: the contraction splits at the joint into its two halves. -/
private theorem layer_of_reads (X S : FVec Ideal S50000x128 .f32) (D : FVec Ideal S50000 .f32)
    (W : FVec Ideal S256x128 .f32) (b : FVec Ideal S128 .f32) (Dc R : FVec Ideal S50000x128 .f32)
    (hD : ∀ (n : Fin 50000) (k : Fin 128), Dc (ix2 n k) = max (D (ix1 n)) 1)
    (hR : ∀ (n : Fin 50000) (j : Fin 128), R (ix2 n j)
        = max ((∑ k : Fin 256,
            concatenate S50000x256 1 [⟨S50000x128, X⟩, ⟨S50000x128, Host.divf (F := Ideal) S Dc⟩]
              concatenates_S50000x128_S50000x128_S50000x256_d1 (ix2 n k) * W (ix2 k j)) + b (ix1 j)) 0) :
    R = Cert.Sage.layer X S D W b := by
  funext i
  obtain ⟨n, j, rfl⟩ : ∃ (n : Fin 50000) (j : Fin 128), i = ix2 n j := ⟨i 0, i 1, eq_ix2 i⟩
  rw [Cert.Sage.layer_apply, hR n j]
  refine Cert.Sage.wide_eq_layerAt X S D W b _ n j (fun k => joined_lo X _ n k) (fun k => ?_)
  rw [joined_hi X _ n k]
  show FloatOps.hostDivf (S (ix2 n k)) (Dc (ix2 n k)) = _
  rw [Ideal.hostDivf_def, hD n k]

/-- The reference's first layer. -/
theorem hidden_eq (x0 : FVec Ideal S50000x128 .f32) (x1 : IVec S2x800000 32) (x2 : FVec Ideal S256x128 .f32) (x3 : FVec Ideal S128 .f32) :
    Read.val_main_v28 (F := Ideal) x0 x1 x2 x3 = Cert.Sage.layer x0 (nsum x0 x1) (degAt (tgt x1)) x2 x3 := by
  refine (layer_of_reads x0 (Read.val_main_v13 (F := Ideal) x0 x1) (Read.val_main_v17 (F := Ideal) x1) x2 x3
    (Read.val_main_v21 (F := Ideal) x1) _ (fun n k => ?_) (fun n j => ?_)).trans ?_
  · -- the clamped degree, broadcast along the features
    rw [Read.val_main_v21_apply, Read.val_main_v20_apply, Read.val_main_v19_apply, Read.val_main_v18_apply,
      Read.val_main_cst_3_apply,
      show Read.idx_main_v20 (Read.idx_main_v21 (ix2 n k)) = ix1 n from
        funext fun a => Fin.ext (by match a with | ⟨0, _⟩ => rfl),
      Ideal.maximumf_def, Ideal.ofBits_def, Ideal.ofBits_one_f32]
  · -- the contraction of the joined row, the bias, the clip at zero
    rw [Read.val_main_v28_apply, Read.val_main_v27_apply, Read.val_main_v24_apply, Read.val_main_v26_apply,
      Read.val_main_v25_apply, Read.val_main_call0_v0_apply, Read.val_main_call0_cst_apply]
    have el : ∀ k : Fin 256, Read.lidx_main_v24 (ix2 n j) k = ix2 n k := fun k =>
      funext fun a => Fin.ext (by match a with | ⟨0, _⟩ => rfl | ⟨1, _⟩ => rfl)
    have er : ∀ k : Fin 256, Read.ridx_main_v24 (ix2 n j) k = ix2 k j := fun k =>
      funext fun a => Fin.ext (by match a with | ⟨0, _⟩ => rfl | ⟨1, _⟩ => rfl)
    have eb : Read.idx_main_v25 (Read.idx_main_v26 (ix2 n j)) = ix1 j :=
      funext fun a => Fin.ext (by match a with | ⟨0, _⟩ => rfl)
    simp only [el, er, eb, Ideal.maximumf_def, Ideal.addf_def, Ideal.ofBits_def, Ideal.ofBits_zero_f32]
    unfold Read.val_main_v23 Read.val_main_v22
    rfl
  · rw [nsum_first, deg_first]

/-- The reference's result: the second layer of the first. -/
theorem result_eq (x0 : FVec Ideal S50000x128 .f32) (x1 : IVec S2x800000 32) (x2 : FVec Ideal S256x128 .f32) (x3 : FVec Ideal S128 .f32)
    (x4 : FVec Ideal S256x128 .f32) (x5 : FVec Ideal S128 .f32) :
    Read.val_main_v53 (F := Ideal) x0 x1 x2 x3 x4 x5
      = Cert.Sage.layer (Cert.Sage.layer x0 (nsum x0 x1) (degAt (tgt x1)) x2 x3)
          (nsum (Cert.Sage.layer x0 (nsum x0 x1) (degAt (tgt x1)) x2 x3) x1) (degAt (tgt x1)) x4 x5 := by
  refine (layer_of_reads (Read.val_main_v28 (F := Ideal) x0 x1 x2 x3) (Read.val_main_v38 (F := Ideal) x0 x1 x2 x3)
    (Read.val_main_v42 (F := Ideal) x1) x4 x5 (Read.val_main_v46 (F := Ideal) x1) _ (fun n k => ?_) (fun n j => ?_)).trans ?_
  · -- the clamped degree, broadcast along the features
    rw [Read.val_main_v46_apply, Read.val_main_v45_apply, Read.val_main_v44_apply, Read.val_main_v43_apply,
      Read.val_main_cst_9_apply,
      show Read.idx_main_v45 (Read.idx_main_v46 (ix2 n k)) = ix1 n from
        funext fun a => Fin.ext (by match a with | ⟨0, _⟩ => rfl),
      Ideal.maximumf_def, Ideal.ofBits_def, Ideal.ofBits_one_f32]
  · -- the contraction of the joined row, the bias, the clip at zero
    rw [Read.val_main_v53_apply, Read.val_main_v52_apply, Read.val_main_v49_apply, Read.val_main_v51_apply,
      Read.val_main_v50_apply, Read.val_main_call1_v0_apply, Read.val_main_call1_cst_apply]
    have el : ∀ k : Fin 256, Read.lidx_main_v49 (ix2 n j) k = ix2 n k := fun k =>
      funext fun a => Fin.ext (by match a with | ⟨0, _⟩ => rfl | ⟨1, _⟩ => rfl)
    have er : ∀ k : Fin 256, Read.ridx_main_v49 (ix2 n j) k = ix2 k j := fun k =>
      funext fun a => Fin.ext (by match a with | ⟨0, _⟩ => rfl | ⟨1, _⟩ => rfl)
    have eb : Read.idx_main_v50 (Read.idx_main_v51 (ix2 n j)) = ix1 j :=
      funext fun a => Fin.ext (by match a with | ⟨0, _⟩ => rfl)
    simp only [el, er, eb, Ideal.maximumf_def, Ideal.addf_def, Ideal.ofBits_def, Ideal.ofBits_zero_f32]
    unfold Read.val_main_v48 Read.val_main_v47
    rfl
  · rw [nsum_second, deg_second, hidden_eq]

end Cert.ReferenceIdeal.RefValue

end
-- ==== Proof.PreDecode.lean ====
/-
  What the precondition says of the edge list: every target id (row 1) is at least zero as a signed 32-bit integer.
  A nonnegative id is not counted from the end, so bringing it into range leaves it as it is.
-/
import proofs.«407514_j51651276702105_3_alg».proof.Proof.Gen.Pre_finite_inputs
import proofs.«407514_j51651276702105_3_alg».proof.Proof.Chain
import Idealize.ShloMosaic.Lib.ReduceAll
import Idealize.ShloMosaic.Lib.StableHlo.Predicate
import Idealize.ShloMosaic.Lib.ValueIdx

noncomputable section

namespace Cert.Proof.PreDecode

open Idealize.ShloMosaic Idealize.ShloMosaic.ValueIdx

/-- The empty shape has exactly one index. -/
private instance : Subsingleton Cert.Pre_finite_inputs.S_.Idx := ⟨fun _ _ => funext fun d => d.elim0⟩

/-- A word that tests at least zero, signed, does not test below zero. -/
private theorem slt_zero_of_sge_zero {v : BitVec 32} (hv : IntOp.cmpi .sge v 0#32 = 1#1) :
    IntOp.cmpi .slt v 0#32 = 0#1 := by
  apply eq_zero_of_ne_one
  rw [IntOp.cmpi_slt]
  rw [IntOp.cmpi_sge] at hv
  omega

/-- The last conjunct of the precondition, read at one edge: the edge's target id is at least zero, signed.
    The precondition is a conjunction whose outermost right-hand side is the conjunction, over all edges, of that
    comparison on row 1 of the edge list; the other conjuncts (on the float inputs) are left as they are. -/
private theorem tgt_nonneg (x0 : FVec Ideal Cert.Pre_finite_inputs.S50000x128 .f32) (x1 : IVec Cert.Pre_finite_inputs.S2x800000 32)
    (x2 : FVec Ideal Cert.Pre_finite_inputs.S256x128 .f32) (x3 : FVec Ideal Cert.Pre_finite_inputs.S128 .f32)
    (x4 : FVec Ideal Cert.Pre_finite_inputs.S256x128 .f32) (x5 : FVec Ideal Cert.Pre_finite_inputs.S128 .f32)
    (h : Cert.Pre_finite_inputs.fn (F := Ideal) x0 x1 x2 x3 x4 x5 = fun _ => 1#1) (e : Cert.Pre_finite_inputs.S800000.Idx) :
    IntOp.cmpi .sge (Cert.KernelIdeal.Chain.tgt x1 e) 0#32 = 1#1 := by
  have h0 := congrFun h ValueIdx.ix0
  unfold Cert.Pre_finite_inputs.fn Cert.Pre_finite_inputs.fn_part1 at h0
  -- the outermost conjunction: its right-hand side is the conjunction over all edges
  have h28 := (IntOp.andi_eq_one.1 h0).2
  -- a conjunction over all edges that holds, holds at each edge; row 1 of the edge list is the same slice in both spellings
  exact Host.reduce_andi_all _ _ _ _ _ h28 e

/-- Under the precondition, bringing the target ids into range changes none of them. -/
theorem wrap_tgt (x0 : FVec Ideal Cert.Pre_finite_inputs.S50000x128 .f32) (x1 : IVec Cert.Pre_finite_inputs.S2x800000 32)
    (x2 : FVec Ideal Cert.Pre_finite_inputs.S256x128 .f32) (x3 : FVec Ideal Cert.Pre_finite_inputs.S128 .f32)
    (x4 : FVec Ideal Cert.Pre_finite_inputs.S256x128 .f32) (x5 : FVec Ideal Cert.Pre_finite_inputs.S128 .f32)
    (h : Cert.Pre_finite_inputs.fn (F := Ideal) x0 x1 x2 x3 x4 x5 = fun _ => 1#1) :
    Cert.KernelIdeal.Chain.wrap (Cert.KernelIdeal.Chain.tgt x1) = Cert.KernelIdeal.Chain.tgt x1 := by
  funext e
  have hge := tgt_nonneg x0 x1 x2 x3 x4 x5 h e
  unfold Cert.KernelIdeal.Chain.wrap
  rw [select_apply]
  -- the id is not below zero, so the select keeps it
  have hc : cmpi .slt (Cert.KernelIdeal.Chain.tgt x1)
      (broadcastInDim Cert.KernelIdeal.S800000 ![] Cert.KernelIdeal.Gen.bcast_S_S800000 (constantI Cert.KernelIdeal.S_ 32 0#32)) e = 0#1 :=
    slt_zero_of_sge_zero hge
  rw [hc, select_zero]

end Cert.Proof.PreDecode

end
-- ==== Proof.Claims.lean ====
/-
  The claims. Both programs end with the same function of the arguments: two mean-aggregation layers,
      out = layer (layer X (nsum X) D W1 b1) (nsum (layer X (nsum X) D W1 b1)) D W2 b2,
  with nsum the sum of the features gathered along the incoming edges and D the in-degree counted at the target ids.
  The reference computes D at the raw target ids; the kernel program counts it at the ids brought into range, which
  under the precondition (every target id at least zero) are the same ids. The gather and the accumulating scatter
  are the same operations on both sides and are never opened. The three frames are the generated ones; the ideal
  pass recorded no rewrite, so the kernel's idealization has nothing to state.
-/
import proofs.«407514_j51651276702105_3_alg».proof.Defs
import proofs.«407514_j51651276702105_3_alg».proof.Proof.Gen.Kernel.Frame
import proofs.«407514_j51651276702105_3_alg».proof.Proof.Gen.KernelIdeal.Frame
import proofs.«407514_j51651276702105_3_alg».proof.Proof.Gen.ReferenceIdeal.Run
import proofs.«407514_j51651276702105_3_alg».proof.Proof.Gen.ReferenceIdeal.Read
import proofs.«407514_j51651276702105_3_alg».proof.Proof.KernelRun
import proofs.«407514_j51651276702105_3_alg».proof.Proof.KernelValue
import proofs.«407514_j51651276702105_3_alg».proof.Proof.KernelForm
import proofs.«407514_j51651276702105_3_alg».proof.Proof.RefValue
import proofs.«407514_j51651276702105_3_alg».proof.Proof.PreDecode

noncomputable section

namespace Cert.Proof.Claims

open Idealize.ShloMosaic Idealize.ShloMosaic.TcCoe Idealize.SL.Sem

/-! ## The two programs' vocabularies name the same host computations -/

theorem tgt_ref (E : IVec Cert.KernelIdeal.S2x800000 32) :
    Cert.ReferenceIdeal.Chain.tgt E = Cert.KernelIdeal.Chain.tgt E := rfl

theorem degAt_ref (ids : IVec Cert.KernelIdeal.S800000 32) :
    Cert.ReferenceIdeal.Chain.degAt ids = Cert.KernelIdeal.Chain.degAt ids := rfl

theorem nsum_ref (X : FVec Ideal Cert.KernelIdeal.S50000x128 .f32) (E : IVec Cert.KernelIdeal.S2x800000 32) :
    Cert.ReferenceIdeal.Chain.nsum X E = Cert.KernelIdeal.Chain.nsum X E := rfl

/-! ## The kernel program's result is the two layers -/

open Cert.KernelIdeal.KValue Cert.KernelIdeal.Chain in
/-- Under the precondition the kernel program's result array is the second layer of the first, the degree counted
    at the raw target ids. -/
theorem kOut_eq (m : (ℓ : Loc Cert.KernelIdeal.nD Cert.KernelIdeal.τ Cert.KernelIdeal.sig) → Buf (Elt Ideal) ℓ)
    (hpre : Cert.Pre_KernelIdeal m) (c : Dev Cert.KernelIdeal.nD) :
    kOut m c
      = Cert.Sage.layer (Cert.Sage.layer (aX m c) (nsum (aX m c) (aE m c)) (degAt (tgt (aE m c))) (aW1 m c) (aB1 m c))
          (nsum (Cert.Sage.layer (aX m c) (nsum (aX m c) (aE m c)) (degAt (tgt (aE m c))) (aW1 m c) (aB1 m c)) (aE m c))
          (degAt (tgt (aE m c))) (aW2 m c) (aB2 m c) := by
  have hw : wrap (tgt (aE m c)) = tgt (aE m c) := Cert.Proof.PreDecode.wrap_tgt _ _ _ _ _ _ (hpre c)
  unfold kOut kH kInv
  rw [hw, Cert.KernelIdeal.KForm.region_eq_layer, Cert.KernelIdeal.KForm.region_eq_layer]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass applied no rule to this kernel. -/
theorem preserves : Cert.preserves_Kernel_KernelIdeal := trivial

/-- From memories agreeing on the arguments both programs run and end with the two layers of the arguments. -/
theorem algebraic : Cert.algebraic_KernelIdeal_ReferenceIdeal := by
  intro m ρ m' ρ' hpre hagree
  refine ⟨fun c => Cert.KernelIdeal.KValue.kOut m c, ?_, ?_⟩
  · exact (θ_run Cert.KernelIdeal.defs _ _).mono
      (fun r h c => ⟨(h c).1.trans (Cert.KernelIdeal.KValue.W4_v45 m ρ c), (h c).2⟩)
      (Cert.KernelIdeal.RunOut.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v53_eq, Cert.ReferenceIdeal.RefValue.result_eq,
      (hagree c).1, (hagree c).2.1, (hagree c).2.2.1, (hagree c).2.2.2.1, (hagree c).2.2.2.2.1, (hagree c).2.2.2.2.2]
    exact (kOut_eq m hpre c).symm

end Cert.Proof.Claims

end
-- ==== Proof.lean ====
/-
  Equivalence over the extended reals of a two-layer mean-aggregation graph network, computed by two fused
  matmul launches around host gathers and scatters, with its plain reference: the frames of the three programs, the
  (empty) record of the kernel's idealization, and the equality of the two results under the precondition that every
  float input is finite and every target node id of the edge list is at least zero. The argument is in
  Proof/Claims.lean and the modules it imports: the specification (Proof/Spec.lean), the kernel program's value
  (Proof/KernelBody.lean, Region0.lean, Region1.lean, KernelRun.lean, KernelValue.lean, KernelForm.lean), the
  reference's (Proof/RefValue.lean) and the reading of the precondition (Proof/PreDecode.lean).
-/
import proofs.«407514_j51651276702105_3_alg».proof.Defs
import proofs.«407514_j51651276702105_3_alg».proof.Proof.Gen.Kernel
import proofs.«407514_j51651276702105_3_alg».proof.Proof.Gen.Kernel.Skeleton
import proofs.«407514_j51651276702105_3_alg».proof.Proof.Gen.Kernel.Launch
import proofs.«407514_j51651276702105_3_alg».proof.Proof.Gen.Kernel.Points
import proofs.«407514_j51651276702105_3_alg».proof.Proof.Gen.Kernel.Frame
import proofs.«407514_j51651276702105_3_alg».proof.Proof.Gen.KernelIdeal
import proofs.«407514_j51651276702105_3_alg».proof.Proof.Gen.KernelIdeal.Skeleton
import proofs.«407514_j51651276702105_3_alg».proof.Proof.Gen.KernelIdeal.Launch
import proofs.«407514_j51651276702105_3_alg».proof.Proof.Gen.KernelIdeal.Points
import proofs.«407514_j51651276702105_3_alg».proof.Proof.Gen.KernelIdeal.Frame
import proofs.«407514_j51651276702105_3_alg».proof.Proof.Gen.ReferenceIdeal
import proofs.«407514_j51651276702105_3_alg».proof.Proof.Gen.Pre_finite_inputs
import proofs.«407514_j51651276702105_3_alg».proof.Proof.Gen.ReferenceIdeal.Run
import proofs.«407514_j51651276702105_3_alg».proof.Proof.Gen.ReferenceIdeal.Read
import proofs.«407514_j51651276702105_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
